-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S2000x128 : Shape := ⟨2, ![2000, 128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S6400000 : Shape := ⟨1, ![6400000]⟩

abbrev nBuf : Space → Nat
  | .hbm => 62
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S50000x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S50000, .i32⟩
  | .hbm, ⟨10, _⟩ => ⟨S650000, .i32⟩
  | .hbm, ⟨11, _⟩ => ⟨S650000, .i32⟩
  | .hbm, ⟨12, _⟩ => ⟨S_, .f32⟩
  | .hbm, ⟨13, _⟩ => ⟨S650000, .f32⟩
  | .hbm, ⟨14, _⟩ => ⟨S_, .f32⟩
  | .hbm, ⟨15, _⟩ => ⟨S50000, .f32⟩
  | .hbm, ⟨16, _⟩ => ⟨S650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000x128, .f32⟩
  | .hbm, ⟨53, _⟩ => ⟨S650000x1, .f32⟩
  | .hbm, ⟨54, _⟩ => ⟨S650000x128, .f32⟩
  | .hbm, ⟨55, _⟩ => ⟨S650000x128, .f32⟩
  | .hbm, ⟨56, _⟩ => ⟨S_, .f32⟩
  | .hbm, ⟨57, _⟩ => ⟨S50000x128, .f32⟩
  | .hbm, ⟨58, _⟩ => ⟨S650000x1, .i32⟩
  | .hbm, ⟨59, _⟩ => ⟨S50000x128, .f32⟩
  | .hbm, ⟨60, _⟩ => ⟨S50000x128, .f32⟩
  | .hbm, ⟨61, _⟩ => ⟨S6400000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  shapeCasts_S50000x128_S6400000 : S50000x128.ShapeCasts S6400000
  dot_S2000x128_S128x128_S2000x128_1_0_0_1_n_n_wf : DotDims.WF S2000x128 S128x128 S2000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S6400000 : Shape := ⟨1, ![6400000]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x600000, .i32⟩
  | .hbm, ⟨6, _⟩ => ⟨S600000, .i32⟩
  | .hbm, ⟨7, _⟩ => ⟨S650000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S650000, .i32⟩
  | .hbm, ⟨26, _⟩ => ⟨S650000, .i1⟩
  | .hbm, ⟨27, _⟩ => ⟨S_, .i32⟩
  | .hbm, ⟨28, _⟩ => ⟨S650000, .i32⟩
  | .hbm, ⟨29, _⟩ => ⟨S650000, .i32⟩
  | .hbm, ⟨30, _⟩ => ⟨S650000, .i32⟩
  | .hbm, ⟨31, _⟩ => ⟨S650000x1, .i32⟩
  | .hbm, ⟨32, _⟩ => ⟨S650000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S50000x128, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000x128, .f32⟩
  | .hbm, ⟨53, _⟩ => ⟨S650000x1, .f32⟩
  | .hbm, ⟨54, _⟩ => ⟨S650000x128, .f32⟩
  | .hbm, ⟨55, _⟩ => ⟨S650000x128, .f32⟩
  | .hbm, ⟨56, _⟩ => ⟨S_, .f32⟩
  | .hbm, ⟨57, _⟩ => ⟨S50000x128, .f32⟩
  | .hbm, ⟨58, _⟩ => ⟨S650000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S6400000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S6400000 : S50000x128.ShapeCasts S6400000
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.LibDotPlain.lean ====
/-
  The coordinate facts of a plain rank-2 by rank-2 product.

  A record of dimension numbers for shapes [M, K] x [K, N] -> [M, N] that contracts the left operand's second axis
  with the right operand's first, keeps the left operand's first axis and the right operand's second as the
  result's two axes, and has no batch axis, reads its operands as a matrix product does: the contraction shape is
  the one axis of extent K; the left operand is read at (result row, contraction position) and the right operand at
  (contraction position, result column). Stated from the record's six field equations, so that a caller proves
  them by `rfl` for its own record.
-/
import Idealize.ShloMosaic.Lib.ValueIdx
import Idealize.ShloMosaic.PureOps.Ideal.Laws

noncomputable section

namespace Cert.Lib.DotPlain

open Idealize.ShloMosaic Idealize.ShloMosaic.ValueIdx

variable {M K N : Nat} (D : DotDims ⟨2, ![M, K]⟩ ⟨2, ![K, N]⟩ ⟨2, ![M, N]⟩)

/-- One contracted axis: the contraction shape has rank one. -/
theorem contr_rank (hlc : D.lhsContracting = [1]) : D.contr.rank = 1 := by
  rw [D.rank_contr, hlc]; rfl

/-- Its one extent is the left operand's second extent, K. -/
theorem contr_size (hlc : D.lhsContracting = [1]) :
    D.contr.size ⟨0, by rw [contr_rank D hlc]; exact Nat.one_pos⟩ = K := by
  have h := D.size_contr 0 (by rw [hlc]; exact Nat.one_pos)
  simp only [hlc, List.getElem_cons_zero] at h
  exact h

/-- Two coordinates of one index at equal positions are equal as numbers. -/
private theorem coord_congr {s : Shape} (i : s.Idx) (p q : Nat) (hp : p < s.rank) (hq : q < s.rank) (h : p = q) :
    (i ⟨p, hp⟩).val = (i ⟨q, hq⟩).val := by subst h; rfl

/-- The left operand's row is the result's row. -/
theorem lhs_row (hlb : D.lhsBatch = []) (hln : D.lhsNonContracting = [0]) (i : (⟨2, ![M, N]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ (Nat.mod_lt _ Nat.two_pos) (by simp [hlb, hln])

/-- The left operand's column is the contraction position. -/
theorem lhs_col (hlc : D.lhsContracting = [1]) (i : (⟨2, ![M, N]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hrc : D.rhsContracting = [0]) (hlc : D.lhsContracting = [1]) (i : (⟨2, ![M, N]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hrb : D.rhsBatch = []) (hln : D.lhsNonContracting = [0]) (hrn : D.rhsNonContracting = [1])
    (i : (⟨2, ![M, N]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ (Nat.mod_lt _ Nat.two_pos) (by simp [hlb, hln, hrn])

end Cert.Lib.DotPlain

end
-- ==== Proof.MatRegion.lean ====
/-
  Region 0: the array the first kernel leaves is the whole matrix product.

  The grid has 25 points; point t stages rows 2000 t .. 2000 t + 1999 of the left array (all 128 columns), the whole
  128 x 128 right array, and writes back rows 2000 t .. 2000 t + 1999 of the result. The body narrows both blocks to
  bf16, which at the ideal instance changes nothing, and multiplies them into a zero accumulator: entry (p, j) of
  the block it writes is the sum over a < 128 of left (p, a) * right (a, j). Since row p of block t is row
  2000 t + p of the left array, every block written is a block of ONE function of the two arrays,
  `prod X W (r, j) = sum over a of X (r, a) * W (a, j)`, and the 25 blocks tile the 50000 rows: the array ends
  holding `prod` of the two arrays as the region found them.
-/
import proofs.«151862_j20066087207116_1_alg».proof.Proof.Gen.KernelIdeal.Frame
import proofs.«151862_j20066087207116_1_alg».proof.Proof.LibDot2
import proofs.«151862_j20066087207116_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.MatRegion

open Cert.KernelIdeal Cert.KernelIdeal.Gen
open Idealize.ShloMosaic Idealize.ShloMosaic.TcCoe Idealize.ShloMosaic.ValueIdx Idealize.SL.Sem
open Idealize.ShloMosaic.Pipeline (Dat)

/-- The product of a 50000 x 128 array with a 128 x 128 array, entry by entry. -/
def prod (X : FVec Ideal S50000x128 .f32) (W : FVec Ideal S128x128 .f32) : FVec Ideal S50000x128 .f32 :=
  fun i => ∑ a : Fin 128, X (ix2 (n0 := 50000) (n1 := 128) (i 0) a) * W (ix2 (n0 := 128) (n1 := 128) a (i 1))

theorem prod_ix2 (X : FVec Ideal S50000x128 .f32) (W : FVec Ideal S128x128 .f32) (r : Fin 50000) (j : Fin 128) :
    prod X W (ix2 r j) = ∑ a : Fin 128, X (ix2 r a) * W (ix2 a j) := rfl

/-- The body's stored value at (p, j): the sum over the 128 contracted positions. -/
theorem pay_apply (x0 : Vec Ideal S2000x128 .f32) (x1 : Vec Ideal S128x128 .f32) (p : Fin 2000) (j : Fin 128) :
    k0_pay1 (F := Ideal) x0 x1 (ix2 p j) = ∑ a : Fin 128, x0 (ix2 p a) * x1 (ix2 a j) := by
  unfold k0_pay1
  refine (Cert.Lib.Dot2.matmul_zero_ix2 dot_S2000x128_S128x128_S2000x128_1_0_0_1_n_n none
    (Cert.Lib.DotPlain.contr_rank _ rfl) (Cert.Lib.DotPlain.contr_size _ rfl)
    (Cert.Lib.DotPlain.lhs_row _ rfl rfl) (Cert.Lib.DotPlain.lhs_col _ rfl)
    (Cert.Lib.DotPlain.rhs_row _ rfl rfl) (Cert.Lib.DotPlain.rhs_col _ rfl rfl rfl rfl) _ _ p j).trans ?_
  exact Finset.sum_congr rfl fun a _ => rfl

/-- A block whose rows are rows of X and whose right operand is W stores a block of `prod X W`. -/
theorem point_eq (x0 : Vec Ideal S2000x128 .f32) (x1 : Vec Ideal S128x128 .f32)
    (X : FVec Ideal S50000x128 .f32) (W : FVec Ideal S128x128 .f32) (p : Fin 2000) (q : Fin 128) (r : Fin 50000)
    (hrow : ∀ a : Fin 128, x0 (ix2 p a) = X (ix2 r a)) (hw : ∀ a : Fin 128, x1 (ix2 a q) = W (ix2 a q)) :
    k0_pay1 (F := Ideal) x0 x1 (ix2 p q) = prod X W (ix2 r q) := by
  rw [pay_apply, prod_ix2]
  exact Finset.sum_congr rfl fun a _ => by rw [hrow a, hw a]

/-! ## The blocks a point stages, read at an entry -/

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the left and the result windows' block row is the point's number, every
    block column is 0, and the right window's one block is block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_25 (t : Fin cfg0.N) : t.val < 25 := N_0 ▸ t.isLt

/-- Row p of the left block at point t is row 2000 t + p of the left array. -/
theorem left_apply (c : Dev nD) (t : Fin cfg0.N) (p : Fin 2000) (a : Fin 128) :
    iblk0 V c 0 t (ix2 p a) = V c main_arg0 (ix2 (n0 := 50000) (n1 := 128) ⟨t.val * 2000 + p.val, by have := lt_25 t; have := p.isLt; omega⟩ a) := by
  obtain ⟨e0, e1, -, -, -, -⟩ := idx_facts t
  show V c main_arg0 (((cfg0.win 0).blk t).view.emb (ix2 p a)) = _
  refine congrArg (V c main_arg0) ?_
  funext d; apply Fin.ext
  match d with
  | ⟨0, _⟩ => show win0_0.index t (0 : Fin 2) * 2000 + 1 * p.val = t.val * 2000 + p.val; rw [e0]; omega
  | ⟨1, _⟩ => show win0_0.index t (1 : Fin 2) * 128 + 1 * a.val = a.val; rw [e1]; omega

/-- The right block at every point is the whole right array. -/
theorem right_apply (c : Dev nD) (t : Fin cfg0.N) (a q : Fin 128) :
    iblk0 V c 1 t (ix2 a q) = V c main_arg2 (ix2 (n0 := 128) (n1 := 128) a q) := by
  obtain ⟨-, -, e2, e3, -, -⟩ := idx_facts t
  show V c main_arg2 (((cfg0.win 1).blk t).view.emb (ix2 a q)) = _
  refine congrArg (V c main_arg2) ?_
  funext d; apply Fin.ext
  match d with
  | ⟨0, _⟩ => show win0_1.index t (0 : Fin 2) * 128 + 1 * a.val = a.val; rw [e2]; omega
  | ⟨1, _⟩ => show win0_1.index t (1 : Fin 2) * 128 + 1 * q.val = q.val; rw [e3]; omega

/-- Entry (p, q) of the result block at point t is entry (2000 t + p, q) of the result array. -/
theorem out_emb (t : Fin cfg0.N) (p : Fin 2000) (q : Fin 128) :
    ((cfg0.win 2).blk t).view.emb (ix2 p q) = ix2 (n0 := 50000) (n1 := 128) ⟨t.val * 2000 + p.val, by have := lt_25 t; have := p.isLt; omega⟩ q := by
  obtain ⟨-, -, -, -, e4, e5⟩ := idx_facts t
  funext d; apply Fin.ext
  match d with
  | ⟨0, _⟩ => show win0_2.index t (0 : Fin 2) * 2000 + 1 * p.val = t.val * 2000 + p.val; rw [e4]; omega
  | ⟨1, _⟩ => show win0_2.index t (1 : Fin 2) * 128 + 1 * q.val = q.val; rw [e5]; omega

/-! ## What a point writes back, and the array after the region -/

/-- What point t writes back is block t of `prod` of the two arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext y
  obtain ⟨p, q, rfl⟩ : ∃ (p : Fin 2000) (q : Fin 128), y = ix2 p q := ⟨y 0, y 1, eq_ix2 y⟩
  show k0_pay1 (F := Ideal) (iblk0 V c 0 t) (iblk0 V c 1 t) (ix2 p q) = prod (V c main_arg0) (V c main_arg2) (((cfg0.win 2).blk t).view.emb (ix2 p q))
  rw [out_emb t p q]
  exact point_eq (iblk0 V c 0 t) (iblk0 V c 1 t) (V c main_arg0) (V c main_arg2) p q _
    (fun a => left_apply V c t p a) (fun a => right_apply V c t a q)

/-- An entry of the result array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The 25 blocks tile the 50000 rows: row r is in the block of point r / 2000. -/
theorem cover (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : (i 0).val / 2000 < cfg0.N := by show _ < grid0.N; rw [N_0]; omega
  refine ⟨⟨(i 0).val / 2000, hN⟩, flush0_2 _, ?_⟩
  obtain ⟨-, -, -, -, e4, e5⟩ := idx_facts ⟨(i 0).val / 2000, hN⟩
  have e4' : win0_2.index ⟨(i 0).val / 2000, hN⟩ (0 : Fin 2) = (i 0).val / 2000 := e4
  rw [mem_blk]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [e4']; omega
  | ⟨1, _⟩ => show win0_2.index ⟨(i 0).val / 2000, hN⟩ (1 : Fin 2) * 128 ≤ (i 1).val ∧ (i 1).val < win0_2.index ⟨(i 0).val / 2000, hN⟩ (1 : Fin 2) * 128 + 128; rw [e5]; omega

/-- THE ARRAY the first region leaves: the product of the two arrays as the region found them. -/
theorem arr_eq (c : Dev nD) : (dat0 V c).arrAt 2 cfg0.N = prod (V c main_arg0) (V c main_arg2) :=
  (dat0 V c).arrAt_eq_of_cover 2 (prod (V c main_arg0) (V c main_arg2)) (fun t _ => flushed_eq V c t) cover

end

end Cert.KernelIdeal.MatRegion

end
-- ==== Proof.EpiRegion.lean ====
/-
  Region 1: the array the second kernel leaves is the biased, rectified aggregate.

  The grid has 25 points; point t stages rows 2000 t .. 2000 t + 1999 of the aggregate array, the whole bias vector of
  128 entries, and writes back the same rows of the result. The body lays the bias along every row of the block (its
  one-row cast broadcast down the rows), adds, and takes the maximum with zero: entry (p, q) of the block it writes
  is max (block (p, q) + bias q, 0). Every block written is therefore a block of ONE function of the two arrays,
  `epi A b (r, q) = max (A (r, q) + b q, 0)`, and the 25 blocks tile the 50000 rows.
-/
import proofs.«151862_j20066087207116_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.EpiRegion

open Cert.KernelIdeal Cert.KernelIdeal.Gen
open Idealize.ShloMosaic Idealize.ShloMosaic.TcCoe Idealize.ShloMosaic.ValueIdx Idealize.SL.Sem
open Idealize.ShloMosaic.Pipeline (Dat)

/-- Add the bias of the entry's column, then rectify. -/
def epi (A : FVec Ideal S50000x128 .f32) (b : FVec Ideal S128 .f32) : FVec Ideal S50000x128 .f32 :=
  fun i => max (A i + b (ix1 (n := 128) (i 1))) (Ideal.ofBits .f32 0x00000000#32)

theorem epi_ix2 (A : FVec Ideal S50000x128 .f32) (b : FVec Ideal S128 .f32) (r : Fin 50000) (q : Fin 128) :
    epi A b (ix2 r q) = max (A (ix2 r q) + b (ix1 q)) (Ideal.ofBits .f32 0x00000000#32) := rfl

/-- The bias laid along every row of a block, read at (p, q): the bias at q. -/
theorem bias_apply (x1 : Vec Ideal S128 .f32) (p : Fin 2000) (q : Fin 128) :
    broadcastTo S2000x128 (shapeCast S1x128 x1 shapeCasts_S128_S1x128) broadcasts_S1x128_S2000x128 (ix2 p q) = x1 (ix1 q) := by
  refine (broadcastTo_apply (shapeCast S1x128 x1 shapeCasts_S128_S1x128) broadcasts_S1x128_S2000x128 (ix2 p q) (ix2 (0 : Fin 1) q) ?_).trans ?_
  · intro a
    match a with
    | ⟨0, _⟩ => rfl
    | ⟨1, _⟩ => rfl
  · exact shapeCast_apply x1 shapeCasts_S128_S1x128 (ix2 (0 : Fin 1) q) (ix1 q) (by
      rw [Shape.rowMajor_val_two, Shape.rowMajor_val_one]; show q.val = 0 * 128 + q.val; omega)

/-- The body's stored value at (p, q). -/
theorem pay_apply (x0 : Vec Ideal S2000x128 .f32) (x1 : Vec Ideal S128 .f32) (p : Fin 2000) (q : Fin 128) :
    k1_pay1 (F := Ideal) x0 x1 (ix2 p q) = max (x0 (ix2 p q) + x1 (ix1 q)) (Ideal.ofBits .f32 0x00000000#32) := by
  unfold k1_pay1
  show max (shapeCast S2000x128 x0 shapeCasts_S2000x128_S2000x128 (ix2 p q)
      + broadcastTo S2000x128 (shapeCast S1x128 x1 shapeCasts_S128_S1x128) broadcasts_S1x128_S2000x128 (ix2 p q)) _ = _
  rw [shapeCast_self, bias_apply]
  rfl

/-- A block whose rows are rows of A and whose bias is b stores a block of `epi A b`. -/
theorem point_eq (x0 : Vec Ideal S2000x128 .f32) (x1 : Vec Ideal S128 .f32)
    (A : FVec Ideal S50000x128 .f32) (b : FVec Ideal S128 .f32) (p : Fin 2000) (q : Fin 128) (r : Fin 50000)
    (hrow : x0 (ix2 p q) = A (ix2 r q)) (hb : x1 (ix1 q) = b (ix1 q)) :
    k1_pay1 (F := Ideal) x0 x1 (ix2 p q) = epi A b (ix2 r q) := by
  rw [pay_apply, epi_ix2, hrow, hb]

/-! ## The blocks a point stages, read at an entry -/

section
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the 25 points: the aggregate and the result windows' block row is the point's number,
    their block column 0, and the bias window's one block is block 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

theorem lt_25 (t : Fin cfg1.N) : t.val < 25 := N_1 ▸ t.isLt

/-- Row p of the aggregate block at point t is row 2000 t + p of the aggregate array. -/
theorem agg_apply (c : Dev nD) (t : Fin cfg1.N) (p : Fin 2000) (q : Fin 128) :
    iblk1 V c 0 t (ix2 p q) = V c main_v44 (ix2 (n0 := 50000) (n1 := 128) ⟨t.val * 2000 + p.val, by have := lt_25 t; have := p.isLt; omega⟩ q) := by
  obtain ⟨e0, e1, -, -, -⟩ := idx_facts t
  show V c main_v44 (((cfg1.win 0).blk t).view.emb (ix2 p q)) = _
  refine congrArg (V c main_v44) ?_
  funext d; apply Fin.ext
  match d with
  | ⟨0, _⟩ => show win1_0.index t (0 : Fin 2) * 2000 + 1 * p.val = t.val * 2000 + p.val; rw [e0]; omega
  | ⟨1, _⟩ => show win1_0.index t (1 : Fin 2) * 128 + 1 * q.val = q.val; rw [e1]; omega

/-- The bias block at every point is the whole bias vector. -/
theorem bias_blk_apply (c : Dev nD) (t : Fin cfg1.N) (q : Fin 128) :
    iblk1 V c 1 t (ix1 q) = V c main_arg3 (ix1 (n := 128) q) := by
  obtain ⟨-, -, e2, -, -⟩ := idx_facts t
  show V c main_arg3 (((cfg1.win 1).blk t).view.emb (ix1 q)) = _
  refine congrArg (V c main_arg3) ?_
  funext d; apply Fin.ext
  match d with
  | ⟨0, _⟩ => show win1_1.index t (0 : Fin 1) * 128 + 1 * q.val = q.val; rw [e2]; omega

/-- Entry (p, q) of the result block at point t is entry (2000 t + p, q) of the result array. -/
theorem out_emb (t : Fin cfg1.N) (p : Fin 2000) (q : Fin 128) :
    ((cfg1.win 2).blk t).view.emb (ix2 p q) = ix2 (n0 := 50000) (n1 := 128) ⟨t.val * 2000 + p.val, by have := lt_25 t; have := p.isLt; omega⟩ q := by
  obtain ⟨-, -, -, e3, e4⟩ := idx_facts t
  funext d; apply Fin.ext
  match d with
  | ⟨0, _⟩ => show win1_2.index t (0 : Fin 2) * 2000 + 1 * p.val = t.val * 2000 + p.val; rw [e3]; omega
  | ⟨1, _⟩ => show win1_2.index t (1 : Fin 2) * 128 + 1 * q.val = q.val; rw [e4]; omega

/-! ## What a point writes back, and the array after the region -/

/-- What point t writes back is block t of `epi` of the two arrays as the region finds them. -/
theorem flushed_eq (c : Dev nD) (t : Fin cfg1.N) :
    (dat1 V c).flushed 2 t = ((cfg1.win 2).blk t).view.read (Elt Ideal) (epi (V c main_v44) (V c main_arg3)) := by
  show (cfg1.win 2).cut (grid1.coords t) ((dat1 V c).after 2 t) = _
  rw [after1_2]
  unfold out1_2
  rw [View.canon_unit_zero hz2]
  simp only [View.ld_unit_zero (S := S2000x128) hz2, View.ld_unit_zero (S := S128) hz1]
  funext y
  obtain ⟨p, q, rfl⟩ : ∃ (p : Fin 2000) (q : Fin 128), y = ix2 p q := ⟨y 0, y 1, eq_ix2 y⟩
  show k1_pay1 (F := Ideal) (iblk1 V c 0 t) (iblk1 V c 1 t) (ix2 p q) = epi (V c main_v44) (V c main_arg3) (((cfg1.win 2).blk t).view.emb (ix2 p q))
  rw [out_emb t p q]
  exact point_eq (iblk1 V c 0 t) (iblk1 V c 1 t) (V c main_v44) (V c main_arg3) p q _
    (agg_apply V c t p q) (bias_blk_apply V c t q)

/-- An entry of the result array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 25 blocks tile the 50000 rows: row r is in the block of point r / 2000. -/
theorem cover (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : (i 0).val / 2000 < cfg1.N := by show _ < grid1.N; rw [N_1]; omega
  refine ⟨⟨(i 0).val / 2000, hN⟩, flush1_2 _, ?_⟩
  obtain ⟨-, -, -, e3, e4⟩ := idx_facts ⟨(i 0).val / 2000, hN⟩
  have e3' : win1_2.index ⟨(i 0).val / 2000, hN⟩ (0 : Fin 2) = (i 0).val / 2000 := e3
  rw [mem_blk]
  intro a
  match a with
  | ⟨0, _⟩ => show win1_2.index ⟨(i 0).val / 2000, hN⟩ (0 : Fin 2) * 2000 ≤ (i 0).val ∧ (i 0).val < win1_2.index ⟨(i 0).val / 2000, hN⟩ (0 : Fin 2) * 2000 + 2000; rw [e3']; omega
  | ⟨1, _⟩ => show win1_2.index ⟨(i 0).val / 2000, hN⟩ (1 : Fin 2) * 128 ≤ (i 1).val ∧ (i 1).val < win1_2.index ⟨(i 0).val / 2000, hN⟩ (1 : Fin 2) * 128 + 128; rw [e4]; omega

/-- THE ARRAY the second region leaves: the biased, rectified aggregate of the arrays as the region found them. -/
theorem arr_eq (c : Dev nD) : (dat1 V c).arrAt 2 cfg1.N = epi (V c main_v44) (V c main_arg3) :=
  (dat1 V c).arrAt_eq_of_cover 2 (epi (V c main_v44) (V c main_arg3)) (fun t _ => flushed_eq V c t) cover

end

end Cert.KernelIdeal.EpiRegion

end
-- ==== Proof.HostFold.lean ====
/-
  The host operations between and after the two kernels, read back.

  Between the kernels the program builds, from the edge array, the source and target node of each of the 650000 edges
  (the 600000 given ones and one self loop per node), the degree of every node as a sum of ones over the edges into
  it, the inverse square root of the positive degrees, each edge's weight as the product of its two nodes' values,
  the rows of the first kernel's result gathered by source node and scaled by the edge's weight, and their sum by
  target node. All of that is ONE function `agg` of the first kernel's result and the edge array; the reference
  applies the same function to its own matrix product, so it is named here and never opened. After the second
  kernel the program only lays its result out flat.
-/
import proofs.«151862_j20066087207116_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- The aggregate of a node-feature array `h` over the graph the edge array `e` gives: for each target node, the sum
    over the edges into it of the source node's row scaled by the edge's weight. -/
def agg (h : FVec F S50000x128 .f32) (e : IVec S2x600000 32) : FVec F S50000x128 .f32 :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0)) (mulf (Host.gather gather_S50000x128_S650000x1_S650000x128_1_0_n_n_0_1_1128 h (broadcastInDim S650000x1 ![0] bcast_S650000_S650000x1_0 (select (cmpi .slt (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0) (broadcastInDim S650000 ![] bcast_S_S650000 (constantI S_ 32 0#32))) (addi (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0) (broadcastInDim S650000 ![] bcast_S_S650000 (constantI S_ 32 50000#32))) (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0)))) (broadcastInDim S650000x128 ![0, 1] bcast_S650000x1_S650000x128_0_1 (broadcastInDim S650000x1 ![0] bcast_S650000_S650000x1_0 (mulf (Host.gather gather_S50000_S650000x1_S650000_n_0_n_n_0_1_1 (select (cmpf (F := F) .ogt (Host.scatterAdd scatter_S50000_S650000x1_S650000_n_0_0_1 (broadcastInDim S50000 ![] bcast_S_S50000 (constant S_ .f32 0x00000000#32)) (broadcastInDim S650000x1 ![0] bcast_S650000_S650000x1_0 (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0)) (broadcastInDim S650000 ![] bcast_S_S650000 (constant S_ .f32 0x3F800000#32))) (broadcastInDim S50000 ![] bcast_S_S50000 (constant S_ .f32 0x00000000#32))) (Host.rsqrt (Host.scatterAdd scatter_S50000_S650000x1_S650000_n_0_0_1 (broadcastInDim S50000 ![] bcast_S_S50000 (constant S_ .f32 0x00000000#32)) (broadcastInDim S650000x1 ![0] bcast_S650000_S650000x1_0 (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0)) (broadcastInDim S650000 ![] bcast_S_S650000 (constant S_ .f32 0x3F800000#32)))) (broadcastInDim S50000 ![] bcast_S_S50000 (constant S_ .f32 0x00000000#32))) (broadcastInDim S650000x1 ![0] bcast_S650000_S650000x1_0 (select (cmpi .slt (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0) (broadcastInDim S650000 ![] bcast_S_S650000 (constantI S_ 32 0#32))) (addi (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0) (broadcastInDim S650000 ![] bcast_S_S650000 (constantI S_ 32 50000#32))) (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0)))) (Host.gather gather_S50000_S650000x1_S650000_n_0_n_n_0_1_1 (select (cmpf (F := F) .ogt (Host.scatterAdd scatter_S50000_S650000x1_S650000_n_0_0_1 (broadcastInDim S50000 ![] bcast_S_S50000 (constant S_ .f32 0x00000000#32)) (broadcastInDim S650000x1 ![0] bcast_S650000_S650000x1_0 (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0)) (broadcastInDim S650000 ![] bcast_S_S650000 (constant S_ .f32 0x3F800000#32))) (broadcastInDim S50000 ![] bcast_S_S50000 (constant S_ .f32 0x00000000#32))) (Host.rsqrt (Host.scatterAdd scatter_S50000_S650000x1_S650000_n_0_0_1 (broadcastInDim S50000 ![] bcast_S_S50000 (constant S_ .f32 0x00000000#32)) (broadcastInDim S650000x1 ![0] bcast_S650000_S650000x1_0 (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0)) (broadcastInDim S650000 ![] bcast_S_S650000 (constant S_ .f32 0x3F800000#32)))) (broadcastInDim S50000 ![] bcast_S_S50000 (constant S_ .f32 0x00000000#32))) (broadcastInDim S650000x1 ![0] bcast_S650000_S650000x1_0 (select (cmpi .slt (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0) (broadcastInDim S650000 ![] bcast_S_S650000 (constantI S_ 32 0#32))) (addi (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0) (broadcastInDim S650000 ![] bcast_S_S650000 (constantI S_ 32 50000#32))) (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0))))))))

variable (m : (ℓ : Loc nD τ sig) → Buf (Elt F) ℓ) (ρ : Dev nD → PrngReg)

/-- The aggregate array as the second kernel finds it: `agg` of the first kernel's result and of the edge array, both as
    the first kernel left them. -/
theorem aggregate_eq (c : Dev nD) :
    W4 m ρ c (Proc.devRef .tc main_v44) = agg (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v44) = _
  after_results_simp <;> rfl

/-- The result laid out flat: the closing reshape of the second kernel's result. -/
theorem flat_eq (c : Dev nD) :
    W6 m ρ c (Proc.devRef .tc main_v46) = shapeCast _ (W5 m ρ c (Proc.devRef .tc main_v45)) shapeCasts_S50000x128_S6400000 := by
  show StableHlo.after hostOps2 (W5 m ρ c) (Proc.devRef .tc main_v46) = _
  after_results
  rfl

/-- No host operation between the kernels writes the bias. -/
theorem bias_kept (c : Dev nD) : W4 m ρ c (Proc.devRef .tc main_arg3) = W1 m ρ c (Proc.devRef .tc main_arg3) := by
  show StableHlo.after hostOps1_2 (StableHlo.after hostOps1_1 (StableHlo.after hostOps1 (W1 m ρ c))) (Proc.devRef .tc main_arg3) = _
  after_results_simp <;> rfl

/-- The first kernel leaves the bias, which is none of its arrays, as launched. -/
theorem bias_launch (c : Dev nD) : W1 m ρ c (Proc.devRef .tc main_arg3) = m ((c : Thread nD τ).loc main_arg3) :=
  W1_of_ne m ρ c main_arg3 (by decide)

/-- The first kernel leaves the edge array, which is none of its arrays, as launched. -/
theorem edges_launch (c : Dev nD) : W1 m ρ c (Proc.devRef .tc main_arg1) = m ((c : Thread nD τ).loc main_arg1) :=
  W1_of_ne m ρ c main_arg1 (by decide)

/-- The first kernel's result array is what its write-backs leave. -/
theorem first_result (c : Dev nD) : W1 m ρ c (Proc.devRef .tc main_v0) = (dat0 (V0 m ρ) c).arrAt 2 cfg0.N :=
  W1_arr m ρ c 2

/-- The second kernel's result array is what its write-backs leave. -/
theorem second_result (c : Dev nD) : W5 m ρ c (Proc.devRef .tc main_v45) = (dat1 (V4 m ρ) c).arrAt 2 cfg1.N :=
  W5_arr m ρ c 2

end Cert.KernelIdeal.Fold

end
-- ==== Proof.RefValue.lean ====
/-
  The reference's result is the same function of the arguments as the kernel program's.

  The reference multiplies the whole 50000 x 128 array by the 128 x 128 array on the host, which at the ideal instance
  is the plain sum over the 128 contracted positions: the function `prod` the first kernel's 25 blocks assemble. It then
  applies to that product the very operations the kernel program applies between its kernels (the function `agg`),
  adds the bias laid along every row (its one-row broadcast, broadcast down the rows) and takes the maximum with
  zero: the function `epi` the second kernel's blocks assemble. Sums, products and maxima of extended reals are
  never rearranged here, so nothing is asked of the inputs.
-/
import proofs.«151862_j20066087207116_1_alg».proof.Proof.RefRun
import proofs.«151862_j20066087207116_1_alg».proof.Proof.MatRegion
import proofs.«151862_j20066087207116_1_alg».proof.Proof.EpiRegion
import proofs.«151862_j20066087207116_1_alg».proof.Proof.HostFold
import proofs.«151862_j20066087207116_1_alg».proof.Proof.LibDot2
import proofs.«151862_j20066087207116_1_alg».proof.Proof.LibDotPlain
import Idealize.ShloMosaic.Lib.KernelVsHost
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

namespace Cert.ReferenceIdeal.Bridge

open Cert.ReferenceIdeal Cert.ReferenceIdeal.Gen
open Idealize.ShloMosaic Idealize.ShloMosaic.TcCoe Idealize.ShloMosaic.ValueIdx Idealize.SL.Sem

/-- The host's matrix product is the sum over the 128 contracted positions, entry by entry. -/
theorem dot_eq (x : FVec Ideal S50000x128 .f32) (w : FVec Ideal S128x128 .f32) :
    Host.dotGeneral dot_S50000x128_S128x128_S50000x128_1_0_0_1_n_n none x w = Cert.KernelIdeal.MatRegion.prod x w := by
  funext i
  obtain ⟨r, j, rfl⟩ : ∃ (r : Fin 50000) (j : Fin 128), i = ix2 r j := ⟨i 0, i 1, eq_ix2 i⟩
  show FloatOps.dotGeneral dot_S50000x128_S128x128_S50000x128_1_0_0_1_n_n none _ x w (ix2 r j) = _
  rw [Ideal.dotGeneral_apply, Cert.KernelIdeal.MatRegion.prod_ix2]
  exact Cert.Lib.Dot2.contraction_ix2 dot_S50000x128_S128x128_S50000x128_1_0_0_1_n_n
    (Cert.Lib.DotPlain.contr_rank _ rfl) (Cert.Lib.DotPlain.contr_size _ rfl)
    (Cert.Lib.DotPlain.lhs_row _ rfl rfl) (Cert.Lib.DotPlain.lhs_col _ rfl)
    (Cert.Lib.DotPlain.rhs_row _ rfl rfl) (Cert.Lib.DotPlain.rhs_col _ rfl rfl rfl rfl) x w r j

/-- The bias as the host lays it along every row, read at (r, q): the bias at q. -/
theorem bias_rows_apply (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) := by
  rw [broadcastInDim_oneRow_apply]
  exact broadcastInDim_apply ![1] bcast_S128_S1x128_1 b (ix2 (0 : Fin 1) q) (ix1 q) (by
    intro a
    match a with
    | ⟨0, _⟩ => rfl)

/-- The host's bias add and rectification is `epi`. -/
theorem epi_eq (A : FVec Ideal S50000x128 .f32) (b : FVec Ideal S128 .f32) :
    maximumf (addf A (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
    = Cert.KernelIdeal.EpiRegion.epi A b := by
  funext i
  obtain ⟨r, q, rfl⟩ : ∃ (r : Fin 50000) (q : Fin 128), i = ix2 r q := ⟨i 0, i 1, eq_ix2 i⟩
  show max (A (ix2 r q) + broadcastInDim S50000x128 ![0, 1] bcast_S1x128_S50000x128_0_1 (broadcastInDim S1x128 ![1] bcast_S128_S1x128_1 b) (ix2 r q))
      (broadcastInDim S50000x128 ![] bcast_S_S50000x128 (constant (F := Ideal) S_ .f32 0x00000000#32) (ix2 r q)) = _
  rw [bias_rows_apply, broadcastInDim_scalar_apply, Cert.KernelIdeal.EpiRegion.epi_ix2]
  rfl

/-- The reference's result term, at any float family, is the shared aggregate of its own matrix product, biased,
    rectified and laid out flat: the two programs' records of dimension numbers have the same fields. -/
theorem result_shape {F : FTy → Type} [FloatOps F] (m : (ℓ : Loc nD τ sig) → Buf (Elt F) ℓ) (c : Dev nD) :
    Cert.ReferenceIdeal.RunP.res_main_v49 m c
      = shapeCast _ (maximumf (addf (Cert.KernelIdeal.Fold.agg
            (Host.dotGeneral dot_S50000x128_S128x128_S50000x128_1_0_0_1_n_n none (m ((c.tc : Thread nD τ).loc main_arg0)) (m ((c.tc : Thread nD τ).loc main_arg2)))
            (m ((c.tc : Thread nD τ).loc main_arg1)))
          (broadcastInDim S50000x128 ![0, 1] bcast_S1x128_S50000x128_0_1 (broadcastInDim S1x128 ![1] bcast_S128_S1x128_1 (m ((c.tc : Thread nD τ).loc main_arg3)))))
        (broadcastInDim S50000x128 ![] bcast_S_S50000x128 (constant S_ .f32 0x00000000#32))) shapeCasts_S50000x128_S6400000 := by
  unfold Cert.ReferenceIdeal.RunP.res_main_v49 Cert.KernelIdeal.Fold.agg
  rfl

/-- THE REFERENCE'S RESULT at the ideal instance: `epi (agg (prod x W) e) b` of its four arguments, laid out flat. -/
theorem result_eq (m : (ℓ : Loc nD τ sig) → Buf (Elt Ideal) ℓ) (c : Dev nD) :
    Cert.ReferenceIdeal.RunP.res_main_v49 m c
      = shapeCast _ (Cert.KernelIdeal.EpiRegion.epi (Cert.KernelIdeal.Fold.agg
            (Cert.KernelIdeal.MatRegion.prod (m ((c.tc : Thread nD τ).loc main_arg0)) (m ((c.tc : Thread nD τ).loc main_arg2)))
            (m ((c.tc : Thread nD τ).loc main_arg1)))
          (m ((c.tc : Thread nD τ).loc main_arg3))) shapeCasts_S50000x128_S6400000 := by
  rw [result_shape, dot_eq, epi_eq]

end Cert.ReferenceIdeal.Bridge

end
-- ==== Proof.KernelValue.lean ====
/-
  The kernel program's result as one function of its four arguments.

  Reading the run from its end: the result is the second kernel's array laid out flat; that array is `epi` of the
  aggregate array and the bias as the second kernel found them; the bias is still the launched one, and the aggregate
  array is `agg` of the first kernel's result and the launched edge array; the first kernel's result is `prod` of the
  launched feature and weight arrays. So the result is `epi (agg (prod x W) e) b`, flat.
-/
import proofs.«151862_j20066087207116_1_alg».proof.Proof.RunNamed
import proofs.«151862_j20066087207116_1_alg».proof.Proof.MatRegion
import proofs.«151862_j20066087207116_1_alg».proof.Proof.EpiRegion
import proofs.«151862_j20066087207116_1_alg».proof.Proof.HostFold

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The function of the four launched arrays the program computes, laid out flat. -/
def result (c : Dev nD) : FVec Ideal S6400000 .f32 :=
  shapeCast _ (EpiRegion.epi (Fold.agg
      (MatRegion.prod (m ((c.tc : Thread nD τ).loc main_arg0)) (m ((c.tc : Thread nD τ).loc main_arg2)))
      (m ((c.tc : Thread nD τ).loc main_arg1)))
    (m ((c.tc : Thread nD τ).loc main_arg3))) shapeCasts_S50000x128_S6400000

/-- The aggregate array the second kernel finds. -/
theorem aggregate_value (c : Dev nD) :
    V4 m ρ c main_v44 = Fold.agg
      (MatRegion.prod (m ((c.tc : Thread nD τ).loc main_arg0)) (m ((c.tc : Thread nD τ).loc main_arg2)))
      (m ((c.tc : Thread nD τ).loc main_arg1)) := by
  show W4 m ρ c (Proc.devRef .tc main_v44) = _
  rw [Fold.aggregate_eq, Fold.first_result, MatRegion.arr_eq (V0 m ρ) c, Fold.edges_launch]

/-- The bias the second kernel finds is the launched one. -/
theorem bias_value (c : Dev nD) : V4 m ρ c main_arg3 = m ((c.tc : Thread nD τ).loc main_arg3) :=
  (Fold.bias_kept m ρ c).trans (Fold.bias_launch m ρ c)

/-- The result buffer at the last boundary. -/
theorem result_value (c : Dev nD) : W6 m ρ c (Proc.devRef .tc main_v46) = result m c := by
  rw [Fold.flat_eq, Fold.second_result, EpiRegion.arr_eq (V4 m ρ) c, aggregate_value, bias_value]
  rfl

/-- The run with the result named: every weakly fair execution terminates, nothing faulting, with the result buffer at
    `result` of the launched arrays and the four arguments unchanged. -/
theorem run : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (Named.run_named m ρ)

end Cert.KernelIdeal.KValue

end
-- ==== Proof.lean ====
/-
  A graph-convolution layer: node features times a weight matrix, aggregated over the edges with symmetric
  degree normalisation, plus a bias, rectified, laid out flat.

  The kernel program computes the matrix product in a first kernel (25 row blocks of 2000, each block's operands
  narrowed to bf16 and multiplied into a zero accumulator), the aggregation on the host, and bias plus rectification in
  a second kernel over the same 25 row blocks; the reference does everything on the host. At the ideal instance
  narrowing a float is the identity and both products are the sum over the 128 contracted positions, so the two
  programs hand the same array to the same aggregation; the second kernel's broadcast of the bias down the rows and
  the host's two-step broadcast of it read the same entry. Hence both results are `epi (agg (prod x W) e) b` of the
  four arguments, laid out flat, and they are equal for every input: no sum is reordered across the two sides, so the
  finiteness of the inputs is never used. The idealization rewrote nothing, so there is nothing to preserve.
-/
import proofs.«151862_j20066087207116_1_alg».proof.Defs
import proofs.«151862_j20066087207116_1_alg».proof.Proof.Gen.Kernel
import proofs.«151862_j20066087207116_1_alg».proof.Proof.Gen.Kernel.Skeleton
import proofs.«151862_j20066087207116_1_alg».proof.Proof.Gen.Kernel.Launch
import proofs.«151862_j20066087207116_1_alg».proof.Proof.Gen.Kernel.Points
import proofs.«151862_j20066087207116_1_alg».proof.Proof.Gen.Kernel.Frame
import proofs.«151862_j20066087207116_1_alg».proof.Proof.Gen.KernelIdeal
import proofs.«151862_j20066087207116_1_alg».proof.Proof.Gen.KernelIdeal.Skeleton
import proofs.«151862_j20066087207116_1_alg».proof.Proof.Gen.KernelIdeal.Launch
import proofs.«151862_j20066087207116_1_alg».proof.Proof.Gen.KernelIdeal.Points
import proofs.«151862_j20066087207116_1_alg».proof.Proof.Gen.KernelIdeal.Frame
import proofs.«151862_j20066087207116_1_alg».proof.Proof.Gen.ReferenceIdeal
import proofs.«151862_j20066087207116_1_alg».proof.Proof.Gen.Pre_finite_inputs
import proofs.«151862_j20066087207116_1_alg».proof.Proof.RefRun
import proofs.«151862_j20066087207116_1_alg».proof.Proof.RefValue
import proofs.«151862_j20066087207116_1_alg».proof.Proof.KernelValue
import Idealize.ShloMosaic.Adequacy
import Idealize.ShloMosaic.Init

noncomputable section

namespace Cert.Proof

open Idealize.ShloMosaic Idealize.SL.Sem

/-- The word-level kernel program runs, nothing faulting, its arguments unchanged. -/
theorem frame_kernel : Cert.frame_Kernel := fun m ρ _ => Cert.Kernel.Gen.frame m ρ

/-- The idealized kernel program runs, nothing faulting, its arguments unchanged. -/
theorem frame_kernel_ideal : Cert.frame_KernelIdeal := fun m ρ _ => Cert.KernelIdeal.Gen.frame m ρ

/-- The idealized reference runs, nothing faulting, its arguments unchanged: its run with the result dropped. -/
theorem frame_reference_ideal : Cert.frame_ReferenceIdeal := fun m ρ _ =>
  (θ_run Cert.ReferenceIdeal.defs _ _).mono (fun _ h c => (h c).2) (Cert.ReferenceIdeal.RunP.run (F := Ideal) m ρ)

/-- From memories agreeing on the four arguments both idealized programs end with the result buffer at
    `epi (agg (prod x W) e) b` of those arguments, laid out flat. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.Bridge.result_eq, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
